-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn {F : FTy → Type} [FloatOps F] (main_arg0 : FVec F S2x16x2048x64 .f32) (main_arg1 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x2048 .f32 := Host.absf main_arg1
  let main_cst_0 : FVec F S_ .f32 := constant S_ .f32 0x7F800000#32
  let main_v5 : FVec F S2x16x2048x2048 .f32 := broadcastInDim S2x16x2048x2048 ![] bcast_S_S2x16x2048x2048 main_cst_0
  let main_v6 : IVec S2x16x2048x2048 1 := cmpf .olt main_v4 main_v5
  let main_c_1 : IVec S_ 1 := constantI S_ 1 1#1
  let main_v7 : IVec S_ 1 := (fun x v => Host.reduce IntOp.andi x v reducesTo_S2x16x2048x2048_S_d0_1_2_3 h_S_) main_v6 main_c_1
  let main_v8 : IVec S_ 1 := andi main_v3 main_v7
  main_v8
-- ==== Kernel.lean ====
abbrev S2x16x2048x64 : Shape := ⟨4, ![2, 16, 2048, 64]⟩
abbrev S2x16x2048x2048 : Shape := ⟨4, ![2, 16, 2048, 2048]⟩
abbrev S32x2048x2048 : Shape := ⟨3, ![32, 2048, 2048]⟩
abbrev S32x2048x64 : Shape := ⟨3, ![32, 2048, 64]⟩
abbrev S_ : Shape := ⟨0, ![]⟩
abbrev S32x2048x1 : Shape := ⟨3, ![32, 2048, 1]⟩
abbrev S32x2048x63 : Shape := ⟨3, ![32, 2048, 63]⟩
abbrev S32x2048x128 : Shape := ⟨3, ![32, 2048, 128]⟩
abbrev S1x1024x2048 : Shape := ⟨3, ![1, 1024, 2048]⟩
abbrev S1x2048x128 : Shape := ⟨3, ![1, 2048, 128]⟩
abbrev S1x1024x64 : Shape := ⟨3, ![1, 1024, 64]⟩
abbrev S1024x2048 : Shape := ⟨2, ![1024, 2048]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩
abbrev S1024x64 : Shape := ⟨2, ![1024, 64]⟩

abbrev nBuf : Space → Nat
  | .hbm => 12
  | .vmem => 6
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x2048, .f32⟩
  | .hbm, ⟨2, _⟩ => ⟨S32x2048x2048, .f32⟩
  | .hbm, ⟨3, _⟩ => ⟨S32x2048x64, .f32⟩
  | .hbm, ⟨4, _⟩ => ⟨S32x2048x64, .bf16⟩
  | .hbm, ⟨5, _⟩ => ⟨S_, .bf16⟩
  | .hbm, ⟨6, _⟩ => ⟨S32x2048x1, .bf16⟩
  | .hbm, ⟨7, _⟩ => ⟨S_, .bf16⟩
  | .hbm, ⟨8, _⟩ => ⟨S32x2048x63, .bf16⟩
  | .hbm, ⟨9, _⟩ => ⟨S32x2048x128, .bf16⟩
  | .hbm, ⟨10, _⟩ => ⟨S32x2048x64, .f32⟩
  | .hbm, ⟨11, _⟩ => ⟨S2x16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x128, .bf16⟩
  | .local _ .vmem, ⟨3, _⟩ => ⟨S1x2048x128, .bf16⟩
  | .local _ .vmem, ⟨4, _⟩ => ⟨S1x1024x64, .f32⟩
  | .local _ .vmem, ⟨5, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x16x2048x2048_S32x2048x2048 : S2x16x2048x2048.ShapeCasts S32x2048x2048
  shapeCasts_S2x16x2048x64_S32x2048x64 : S2x16x2048x64.ShapeCasts S32x2048x64
  bitsLt_bf16_f32 : FTy.bits .bf16 < FTy.bits .f32
  bcast_S_S32x2048x1 : S_.BroadcastsInDim S32x2048x1 (![] : Fin 0 → Fin S32x2048x1.rank)
  bcast_S_S32x2048x63 : S_.BroadcastsInDim S32x2048x63 (![] : Fin 0 → Fin S32x2048x63.rank)
  concatenates_S32x2048x64_S32x2048x1_S32x2048x63_S32x2048x128_d2 : Shape.Concatenates [S32x2048x64, S32x2048x1, S32x2048x63] S32x2048x128 2
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S1024x128_o0_0_S1024x64 : S1024x128.Slices ![0, 0] S1024x64
  slices_S1024x128_o0_64_S1024x1 : S1024x128.Slices ![0, 64] S1024x1
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S32x2048x64_S2x16x2048x64 : S32x2048x64.ShapeCasts S2x16x2048x64
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S32x2048x2048.size a
  hwx0_0 : ∀ i : grid0.Coords, EltTy.bits .f32 = 32 ∨ (Rect.block (s := S32x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .bf16 = 32 ∨ (Rect.block (s := S32x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x2048, .f32⟩
  | .hbm, ⟨2, _⟩ => ⟨S_, .f32⟩
  | .hbm, ⟨3, _⟩ => ⟨S2x16x2048, .f32⟩
  | .hbm, ⟨4, _⟩ => ⟨S_, .f32⟩
  | .hbm, ⟨5, _⟩ => ⟨S2x16x2048, .f32⟩
  | .hbm, ⟨6, _⟩ => ⟨S2x16x2048, .f32⟩
  | .hbm, ⟨7, _⟩ => ⟨S2x16x2048x1, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.FrameBits.lean ====
/-
  The frame of the program: @main is a stretch of host operations (two reshapes, a narrowing to bf16, a column of
  ones and 63 columns of zeros, and their concatenation along the last axis into the augmented value matrix), one
  pipelined kernel on the grid (32 heads) x (2 query tiles), and a closing reshape.

  At grid point t the kernel is handed the logits block (1024 query rows by all 2048 keys) and the head's augmented
  value block (2048 keys by 128 lanes), and overwrites its whole output block (1024 by 64) with ONE function of the
  two: the row-softmax numerator and the normaliser come out of one matrix product and are divided. It reads nothing
  it wrote at an earlier point (the load of the output block is never used), so every output block after the body
  is that function of the two input blocks, and the launch theorem of the pipeline library gives the run: each
  array of the pipeline ends at what the proof data says, every other buffer as the host operations leave it; in
  particular the two argument arrays end as launched.
-/
import proofs.«403945_j39376260170426_3_alg».proof.Proof.Gen.Kernel.Launch
import proofs.«403945_j39376260170426_3_alg».proof.Proof.Gen.Kernel.Skeleton
import proofs.«403945_j39376260170426_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the kernel is launched: the launch memory after the eight host
    operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the kernel, the kernel, and the closing reshape: from the contents `V` it
    continues as the kernel's region followed by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only arrays of the pipeline and buffers the pipeline bypasses, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the kernel writes the first argument: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.reshape_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.reshape_writes, StableHlo.nary_writes, Finset.mem_singleton]
    repeat' apply And.intro
    all_goals exact StableHlo.devRef_ne_of_ne (by decide)))

/-- The closing reshape does not write the first argument, and the kernel writes only its arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block whenever the body is called, for any proof data whose array
    is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the value matrix's, also at the odd points, where it is not fetched again: the head has not changed, and
    the block fetched at the point before is still this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The one rectangle the body stores through: the whole output block. -/
abbrev r0_0 : Rect S1x1024x64 := Rect.unit (s := S1x1024x64) ![0, 0, 0] S1x1024x64.size inb_S1x1024x64_S1x1024x64_0_0_0

/-- What the body leaves in the output block, from the logits block `x0` and the value block `x1`: its one store,
    of the quotient of the two parts of the matrix product. -/
def out0_2 (x0 : Vec F S1x1024x2048 .f32) (x1 : Vec F S1x2048x128 .bf16) : Vec F S1x1024x64 .f32 :=
  View.canon [⟨r0_0, k0_pay1 (View.ld x0 (Rect.unit (s := S1x1024x2048) ![0, 0, 0] S1x1024x2048.size inb_S1x1024x2048_S1x1024x2048_0_0_0))
    (View.ld x1 (Rect.unit (s := S1x2048x128) ![0, 0, 0] S1x2048x128.size inb_S1x2048x128_S1x2048x128_0_0_0))⟩]

/-- The store covers the block. -/
theorem cover0_2 (p0 : Vec F S1x1024x64 .f32) (y : S1x1024x64.Idx) :
    ∃ pc ∈ ([⟨r0_0, p0⟩] : List (View.Piece (Elt F) S1x1024x64 .f32)), y ∈ pc.1.set :=
  View.cover_of_tiled [⟨r0_0, p0⟩] S1x1024x64.size (by rfl) y

set_option maxHeartbeats 1000000 in
/-- The body on whole staging buffers, the two inputs' at contents `x0`, `x1` and the output's at anything, runs to
    the end without a fault, leaves the inputs as they were and the output at `out0_2 x0 x1`. -/
theorem sound_kernel (c : Dev nD) (E : Set ℕ) (i : grid0.Coords) (arg2 : Memref sig .tc .vmem S1x1024x2048 .f32) (harg2 : arg2.IsWhole)
    (arg3 : Memref sig .tc .vmem S1x2048x128 .bf16) (harg3 : arg3.IsWhole) (arg4 : Memref sig .tc .vmem S1x1024x64 .f32) (harg4 : arg4.IsWhole)
    (x0 : Vec F S1x1024x2048 .f32) (x1 : Vec F S1x2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__attn_mix_kernel i arg2 harg2 arg3 harg3 arg4 harg4) K := by
  simp only [cc0__attn_mix_kernel_eq_skeleton]; unfold cc0__attn_mix_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the kernel finds them; after the body at point `t` each input's buffer at its block and
    the output's at `out0_2` of the two input blocks; the library's invariant for a kernel with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the pipeline holds
    what the proof data computes, and every other buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, with the two argument arrays read off it: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Frm

end
-- ==== Proof.FrameIdeal.lean ====
/-
  The frame of the program: @main is a stretch of host operations (two reshapes, a narrowing to bf16, a column of
  ones and 63 columns of zeros, and their concatenation along the last axis into the augmented value matrix), one
  pipelined kernel on the grid (32 heads) x (2 query tiles), and a closing reshape.

  At grid point t the kernel is handed the logits block (1024 query rows by all 2048 keys) and the head's augmented
  value block (2048 keys by 128 lanes), and overwrites its whole output block (1024 by 64) with ONE function of the
  two: the row-softmax numerator and the normaliser come out of one matrix product and are divided. It reads nothing
  it wrote at an earlier point (the load of the output block is never used), so every output block after the body
  is that function of the two input blocks, and the launch theorem of the pipeline library gives the run: each
  array of the pipeline ends at what the proof data says, every other buffer as the host operations leave it; in
  particular the two argument arrays end as launched.
-/
import proofs.«403945_j39376260170426_3_alg».proof.Proof.Gen.KernelIdeal.Launch
import proofs.«403945_j39376260170426_3_alg».proof.Proof.Gen.KernelIdeal.Skeleton
import proofs.«403945_j39376260170426_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the kernel is launched: the launch memory after the eight host
    operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the kernel, the kernel, and the closing reshape: from the contents `V` it
    continues as the kernel's region followed by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only arrays of the pipeline and buffers the pipeline bypasses, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the kernel writes the first argument: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.reshape_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.reshape_writes, StableHlo.nary_writes, Finset.mem_singleton]
    repeat' apply And.intro
    all_goals exact StableHlo.devRef_ne_of_ne (by decide)))

/-- The closing reshape does not write the first argument, and the kernel writes only its arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block whenever the body is called, for any proof data whose array
    is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the value matrix's, also at the odd points, where it is not fetched again: the head has not changed, and
    the block fetched at the point before is still this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The one rectangle the body stores through: the whole output block. -/
abbrev r0_0 : Rect S1x1024x64 := Rect.unit (s := S1x1024x64) ![0, 0, 0] S1x1024x64.size inb_S1x1024x64_S1x1024x64_0_0_0

/-- What the body leaves in the output block, from the logits block `x0` and the value block `x1`: its one store,
    of the quotient of the two parts of the matrix product. -/
def out0_2 (x0 : Vec F S1x1024x2048 .f32) (x1 : Vec F S1x2048x128 .bf16) : Vec F S1x1024x64 .f32 :=
  View.canon [⟨r0_0, k0_pay1 (View.ld x0 (Rect.unit (s := S1x1024x2048) ![0, 0, 0] S1x1024x2048.size inb_S1x1024x2048_S1x1024x2048_0_0_0))
    (View.ld x1 (Rect.unit (s := S1x2048x128) ![0, 0, 0] S1x2048x128.size inb_S1x2048x128_S1x2048x128_0_0_0))⟩]

/-- The store covers the block. -/
theorem cover0_2 (p0 : Vec F S1x1024x64 .f32) (y : S1x1024x64.Idx) :
    ∃ pc ∈ ([⟨r0_0, p0⟩] : List (View.Piece (Elt F) S1x1024x64 .f32)), y ∈ pc.1.set :=
  View.cover_of_tiled [⟨r0_0, p0⟩] S1x1024x64.size (by rfl) y

set_option maxHeartbeats 1000000 in
/-- The body on whole staging buffers, the two inputs' at contents `x0`, `x1` and the output's at anything, runs to
    the end without a fault, leaves the inputs as they were and the output at `out0_2 x0 x1`. -/
theorem sound_kernel (c : Dev nD) (E : Set ℕ) (i : grid0.Coords) (arg2 : Memref sig .tc .vmem S1x1024x2048 .f32) (harg2 : arg2.IsWhole)
    (arg3 : Memref sig .tc .vmem S1x2048x128 .bf16) (harg3 : arg3.IsWhole) (arg4 : Memref sig .tc .vmem S1x1024x64 .f32) (harg4 : arg4.IsWhole)
    (x0 : Vec F S1x1024x2048 .f32) (x1 : Vec F S1x2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__attn_mix_kernel i arg2 harg2 arg3 harg3 arg4 harg4) K := by
  simp only [cc0__attn_mix_kernel_eq_skeleton]; unfold cc0__attn_mix_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the kernel finds them; after the body at point `t` each input's buffer at its block and
    the output's at `out0_2` of the two input blocks; the library's invariant for a kernel with nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the pipeline holds
    what the proof data computes, and every other buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, with the two argument arrays read off it: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Frm

end
-- ==== Proof.LibNary3.lean ====
/-
  The result of a `stablehlo` operation of three operand references (a concatenate of three pieces), with each
  operand's contents at its own reference.
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- `nary` over a LITERAL family of three references (a concatenate of three operands, printed
    `nary ![x, a, b] …`): the value written at the result reference is the operation's function applied to the
    family `Fin.cons (V x) (Fin.cons (V a) (Fin.cons (V b) …))` of the operands' contents, each AT ITS OWN
    REFERENCE, in place of `fun k => V (![x, a, b] k)`. Under that binder the reference `![x, a, b] k` is no literal,
    so no result lemma could go on rewriting the operands' contents; in this form each of the three is a literal
    reference again. The analogue for three references of the library's lemma for four. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- `nary3_result` with the result reference un-indexed, the form a `simp` pass over a list of operations uses
    (the same restatement the library makes of its own result lemmas). -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Idealize.ShloMosaic.StableHlo

end
-- ==== Proof.KernelArrays.lean ====
/-
  What the kernel's two input arrays hold when it is launched, read at an index in terms of the launch contents of
  the two arguments.

  * The logits array (32 x 2048 x 2048) is the second argument (2 x 16 x 2048 x 2048) with the two leading axes
    merged: head `16 b + h` of the one is `(b, h)` of the other, the query and key coordinates unchanged.
  * The augmented value array (32 x 2048 x 128) is, along its last axis, the first argument with the leading axes
    merged and narrowed to bf16 (the identity on the extended reals) in lanes 0..63, a column of the bf16 one in
    lane 64, and zeros in lanes 65..127.
-/
import proofs.«403945_j39376260170426_3_alg».proof.Proof.FrameIdeal
import proofs.«403945_j39376260170426_3_alg».proof.Proof.LibNary3
import Idealize.ShloMosaic.Lib.Pipeline.Value
import Idealize.ShloMosaic.Lib.ValueIdx
import Idealize.ShloMosaic.Lib.StableHlo.Run
import Idealize.ShloMosaic.PureOps.Ideal

noncomputable section

namespace Cert.KernelIdeal.Arr

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The contents after a list of host operations, one operation at a time; a three-operand operation (the
    concatenation) keeps each operand at its own reference. -/
macro "after_results3" : tactic =>
  `(tactic| (simp only [StableHlo.after_cons, StableHlo.after_nil]
             repeat (first
               | rw [StableHlo.nullary_result] | rw [StableHlo.unary_result] | rw [StableHlo.reshape_result]
               | rw [StableHlo.nary3_result]
               | (rw [StableHlo.nullary_result_ne]; rotate_left; decide)
               | (rw [StableHlo.unary_result_ne]; rotate_left; decide)
               | (rw [StableHlo.reshape_result_ne]; rotate_left; decide)
               | (rw [StableHlo.nary_result_ne]; rotate_left; decide))))

/-- The logits array is the second argument with its two leading axes merged. -/
theorem xarr_eq (c : Dev nD) :
    (V m c main_v0 : (⟨S32x2048x2048, .f32⟩ : BufTy).Contents (Elt Ideal))
      = shapeCast S32x2048x2048 (m ((c : Thread nD τ).loc main_arg1)) shapeCasts_S2x16x2048x2048_S32x2048x2048 := by
  show StableHlo.after hostOps0 (fun b => m (c, b)) (Proc.devRef .tc main_v0) = _
  after_results3
  rfl

/-- The three pieces of the augmented value array, in lane order. -/
abbrev pieces (c : Dev nD) : List ((s : Shape) × (s.Idx → Ideal .bf16)) :=
  [⟨S32x2048x64, truncf .bf16 (shapeCast S32x2048x64 (m ((c : Thread nD τ).loc main_arg0)) shapeCasts_S2x16x2048x64_S32x2048x64) bitsLt_bf16_f32⟩,
   ⟨S32x2048x1, broadcastInDim S32x2048x1 ![] bcast_S_S32x2048x1 (constant (F := Ideal) S_ .bf16 0x3F80#16)⟩,
   ⟨S32x2048x63, broadcastInDim S32x2048x63 ![] bcast_S_S32x2048x63 (constant (F := Ideal) S_ .bf16 0x0000#16)⟩]

/-- The augmented value array is the concatenation, along the lanes, of the first argument (leading axes merged,
    narrowed to bf16), a column of ones and 63 columns of zeros. -/
theorem varr_eq (c : Dev nD) :
    (V m c main_v5 : (⟨S32x2048x128, .bf16⟩ : BufTy).Contents (Elt Ideal))
      = concatenate S32x2048x128 2 (pieces m c) concatenates_S32x2048x64_S32x2048x1_S32x2048x63_S32x2048x128_d2 := by
  show StableHlo.after hostOps0 (fun b => m (c, b)) (Proc.devRef .tc main_v5) = _
  after_results3
  rfl

/-- The logits array at head `bh = 16 b + h`, query `q`, key `k` is the second argument at `(b, h, q, k)`. -/
theorem xarr_apply (c : Dev nD) (b : Fin 2) (h : Fin 16) (q k : Fin 2048) (bh : Fin 32) (hbh : bh.val = 16 * b.val + h.val) :
    (V m c main_v0 : (⟨S32x2048x2048, .f32⟩ : BufTy).Contents (Elt Ideal)) (ix3 bh q k)
      = m ((c : Thread nD τ).loc main_arg1) (ix4 b h q k) := by
  rw [xarr_eq]
  refine shapeCast_apply _ _ _ _ ?_
  show (S2x16x2048x2048.rowMajor (ix4 b h q k)).val = (S32x2048x2048.rowMajor (ix3 bh q k)).val
  rw [Shape.rowMajor_val_four, Shape.rowMajor_val_three]
  show ((b.val * 16 + h.val) * 2048 + q.val) * 2048 + k.val = (bh.val * 2048 + q.val) * 2048 + k.val
  omega

/-- The augmented value array at head `bh = 16 b + h`, key `k`, lane `d < 64` is the first argument at `(b, h, k, d)`. -/
theorem varr_apply_lo (c : Dev nD) (b : Fin 2) (h : Fin 16) (k : Fin 2048) (d : Fin 64) (bh : Fin 32) (hbh : bh.val = 16 * b.val + h.val) :
    (V m c main_v5 : (⟨S32x2048x128, .bf16⟩ : BufTy).Contents (Elt Ideal)) (ix3 bh k (⟨d.val, by omega⟩ : Fin 128))
      = m ((c : Thread nD τ).loc main_arg0) (ix4 b h k d) := by
  rw [varr_eq]
  refine (concatenate_apply_piece (t := S32x2048x128) (2 : Fin 3) (pieces m c) concatenates_S32x2048x64_S32x2048x1_S32x2048x63_S32x2048x128_d2 _
    0 (Nat.zero_lt_succ 2) S32x2048x64 _ rfl rfl 0 rfl (ix3 bh k d) ?_ ?_).trans ?_
  · intro a ha
    match a with
    | ⟨0, _⟩ => rfl
    | ⟨1, _⟩ => rfl
    | ⟨2, _⟩ => exact absurd rfl ha
  · show 0 + d.val = d.val
    omega
  · refine (show _ = shapeCast (s := S2x16x2048x64) (α := Ideal .f32) S32x2048x64 (m ((c : Thread nD τ).loc main_arg0)) shapeCasts_S2x16x2048x64_S32x2048x64 (ix3 bh k d) from rfl).trans ?_
    refine shapeCast_apply _ _ _ _ ?_
    show (S2x16x2048x64.rowMajor (ix4 b h k d)).val = (S32x2048x64.rowMajor (ix3 bh k d)).val
    rw [Shape.rowMajor_val_four, Shape.rowMajor_val_three]
    show ((b.val * 16 + h.val) * 2048 + k.val) * 64 + d.val = (bh.val * 2048 + k.val) * 64 + d.val
    omega

/-- The augmented value array in lane 64 is the bf16 one, at every head and key. -/
theorem varr_apply_one (c : Dev nD) (k : Fin 2048) (bh : Fin 32) :
    (V m c main_v5 : (⟨S32x2048x128, .bf16⟩ : BufTy).Contents (Elt Ideal)) (ix3 bh k (⟨64, by omega⟩ : Fin 128))
      = Ideal.ofBits .bf16 0x3F80#16 := by
  rw [varr_eq]
  refine (concatenate_apply_piece (t := S32x2048x128) (2 : Fin 3) (pieces m c) concatenates_S32x2048x64_S32x2048x1_S32x2048x63_S32x2048x128_d2 _
    1 (Nat.succ_lt_succ (Nat.zero_lt_succ 1)) S32x2048x1 _ rfl rfl 64 rfl (ix3 bh k (0 : Fin 1)) ?_ ?_).trans ?_
  · intro a ha
    match a with
    | ⟨0, _⟩ => rfl
    | ⟨1, _⟩ => rfl
    | ⟨2, _⟩ => exact absurd rfl ha
  · rfl
  · rfl

end Cert.KernelIdeal.Arr

end
-- ==== Proof.AttnSpec.lean ====
/-
  Softmax-weighted mixing of one row, in the two arrangements the two programs compute it, over the extended reals.

  For a row of logits `x` (over the keys) with maximum `M`, the weights are `w k = exp (x k - M)`.
  * One arrangement multiplies the weights into a value column `v` AND into a second column `u` and divides the two
    sums: `(∑ w k * v k) / (∑ w k * u k)`. With `u` the column of ones the divisor is the sum of the weights.
  * The other normalises the weights first and then mixes: `∑ (w k / (0 + ∑ w)) * v k`.
  For real (finite) logits and values the two agree: the maximum of finitely many reals is real, so every weight is
  a positive real, their sum is a positive real, and dividing a finite sum of reals by it term by term or as a
  whole is the same number. At an infinite entry the two can differ, which is why the law takes finiteness.
-/
import Idealize.ShloMosaic.PureOps.Ideal
import Idealize.ShloMosaic.PureOps.Ideal.Laws
import Idealize.ShloMosaic.Lib.ValueIdx

noncomputable section

namespace Cert.AttnSpec

open Idealize.ShloMosaic

/-- The row maximum, folded from `-∞` (the f32 pattern `0xFF800000`). -/
def rowMax {n : Nat} (x : Fin n → EReal) : EReal :=
  (Finset.univ : Finset (Fin n)).fold max (Ideal.ofBits .f32 0xFF800000#32) x

/-- The weight of key `k` against the subtracted value `M`. -/
def wt {n : Nat} (x : Fin n → EReal) (M : EReal) (k : Fin n) : EReal := Ideal.exp (x k - M)

/-- Mix, then divide: the weights multiplied into the column `v` and into the column `u`, and the quotient of the sums. -/
def mixK {n : Nat} (x v u : Fin n → EReal) : EReal :=
  Ideal.div (∑ k : Fin n, wt x (rowMax x) k * v k) (∑ k : Fin n, wt x (rowMax x) k * u k)

/-- Normalise, then mix: each weight divided by the sum of the weights (started from the f32 zero), times the value.
    The subtracted value is the row maximum joined once more with `-∞`. -/
def mixR {n : Nat} (x v : Fin n → EReal) : EReal :=
  ∑ k : Fin n, Ideal.div (wt x (max (Ideal.ofBits .f32 0xFF800000#32) (rowMax x)) k)
      (Ideal.ofBits .f32 0x00000000#32 + ∑ k' : Fin n, wt x (max (Ideal.ofBits .f32 0xFF800000#32) (rowMax x)) k') * v k

private theorem negInf_eq : Ideal.ofBits .f32 0xFF800000#32 = (⊥ : EReal) := by
  simp [Ideal.ofBits, Ideal.ieee]

private theorem bf16_one_eq : Ideal.ofBits .bf16 0x3F80#16 = (1 : EReal) := by
  simp [Ideal.ofBits, Ideal.ieee]
  exact_mod_cast (by norm_num : (128:ℝ) * (2^7)⁻¹ = 1)

/-- A finite sum of coerced reals is the coerced sum. -/
private theorem coe_sum_real {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of a nonempty row of reals is a real. -/
private theorem rowMax_real {n : Nat} (hn : 0 < n) (xr : Fin n → ℝ) :
    ∃ μ : ℝ, rowMax (fun k => (xr k : EReal)) = (μ : EReal) := by
  have hbot : rowMax (fun k => (xr k : EReal)) ≠ ⊥ := by
    have h : ((xr ⟨0, hn⟩ : ℝ) : EReal) ≤ rowMax (fun k => (xr k : EReal)) := by
      unfold rowMax
      exact (Finset.le_fold_max _).2 (Or.inr ⟨⟨0, hn⟩, Finset.mem_univ _, le_rfl⟩)
    intro hb
    rw [hb] at h
    exact absurd (le_bot_iff.mp h) (EReal.coe_ne_bot _)
  have htop : rowMax (fun k => (xr k : EReal)) ≠ ⊤ := by
    have h : rowMax (fun k => (xr k : EReal)) < ⊤ := by
      unfold rowMax
      rw [negInf_eq]
      exact (Finset.fold_max_lt _).2 ⟨bot_lt_top, fun k _ => EReal.coe_lt_top _⟩
    exact h.ne
  lift rowMax (fun k => (xr k : EReal)) to ℝ using ⟨htop, hbot⟩ with μ hμ
  exact ⟨μ, rfl⟩

/-- THE LAW. For a nonempty row of real logits and real values, normalising first or dividing last is the same
    number, the second column being the bf16 one (`0x3F80`). -/
theorem mix_eq {n : Nat} (hn : 0 < n) (x v : Fin n → EReal) (hx : ∀ k, ∃ r : ℝ, x k = (r : EReal))
    (hv : ∀ k, ∃ r : ℝ, v k = (r : EReal)) :
    mixR x v = mixK x v (fun _ => Ideal.ofBits .bf16 0x3F80#16) := by
  choose xr hxr using hx
  choose vr hvr using hv
  obtain rfl : x = fun k => (xr k : EReal) := funext hxr
  obtain rfl : v = fun k => (vr k : EReal) := funext hvr
  obtain ⟨μ, hμ⟩ := rowMax_real hn xr
  have hs : 0 < ∑ k : Fin n, Real.exp (xr k - μ) := by
    haveI : Nonempty (Fin n) := ⟨⟨0, hn⟩⟩
    exact Finset.sum_pos (fun k _ => Real.exp_pos _) Finset.univ_nonempty
  unfold mixR mixK wt
  rw [hμ, negInf_eq, bf16_one_eq, Ideal.ofBits_zero_f32, max_bot_left, zero_add]
  simp only [← EReal.coe_sub, Ideal.exp_coe, mul_one, ← EReal.coe_mul, ← coe_sum_real]
  rw [Ideal.div_coe hs.ne']
  simp only [Ideal.div_coe hs.ne', ← EReal.coe_mul, ← coe_sum_real]
  rw [EReal.coe_eq_coe_iff, Finset.sum_mul]
  refine Finset.sum_congr rfl (fun k _ => ?_)
  ring

/-! ## The whole arrays -/

/-- The logits' row of result index `i = (b, h, q, d)`: `(b, h, q, k)` over the keys `k`. -/
abbrev rowIdx (i : (⟨4, ![2, 16, 2048, 64]⟩ : Shape).Idx) (k : Fin 2048) : (⟨4, ![2, 16, 2048, 2048]⟩ : Shape).Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- The values' column of result index `i = (b, h, q, d)`: `(b, h, k, d)` over the keys `k`. -/
abbrev colIdx (i : (⟨4, ![2, 16, 2048, 64]⟩ : Shape).Idx) (k : Fin 2048) : (⟨4, ![2, 16, 2048, 64]⟩ : Shape).Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 3).val, (i 3).isLt⟩

/-- The result as one function of the two argument arrays, in the mix-then-divide arrangement: at `(b, h, q, d)`
    the row `(b, h, q, ·)` of the logits mixed into the column `(b, h, ·, d)` of the values and into a column of ones. -/
def G (x0 : (⟨4, ![2, 16, 2048, 64]⟩ : Shape).Idx → EReal) (x1 : (⟨4, ![2, 16, 2048, 2048]⟩ : Shape).Idx → EReal) :
    (⟨4, ![2, 16, 2048, 64]⟩ : Shape).Idx → EReal :=
  fun i => mixK (fun k => x1 (rowIdx i k)) (fun k => x0 (colIdx i k)) (fun _ => Ideal.ofBits .bf16 0x3F80#16)

end Cert.AttnSpec

end
-- ==== Proof.KernelPay.lean ====
/-
  The kernel body's stored value read at one index of the output block: at row `r` and lane `d` it is the row's
  weights mixed into lane `d` of the augmented value block, divided by the same weights mixed into lane 64 (the
  column of ones): the mix-then-divide arrangement.
-/
import proofs.«403945_j39376260170426_3_alg».proof.Proof.Gen.KernelIdeal.Skeleton
import proofs.«403945_j39376260170426_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.AttnSpec
open Idealize.ShloMosaic Idealize.ShloMosaic.ValueIdx

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The logits block viewed as a matrix reads, at `(r, k)`, the block at `(0, r, k)`. -/
theorem logits_apply (v0 : Vec Ideal S1x1024x2048 .f32) (r : Fin 1024) (k : Fin 2048) :
    shapeCast S1024x2048 v0 shapeCasts_S1x1024x2048_S1024x2048 (ix2 r k) = v0 (ix3 (0 : Fin 1) r k) :=
  shapeCast_1ab_ab_apply v0 _ r k

/-- The maximum along the keys of a matrix of logits, at row `r`: the row's maximum folded from `-∞`. -/
theorem rowMax_apply (x : FVec Ideal S1024x2048 .f32) (hφ : FKind.Formats .f32)
    (hacc : (0xFF800000#32 : BitVec 32) = FKind.maximumf.neutral .f32 hφ) (r : Fin 1024) :
    multiReduction (F := Ideal) .maximumf [1] S1024 x 0xFF800000#32 reduces_S1024x2048_S1024 hφ hacc (ix1 r)
      = rowMax (fun k : Fin 2048 => x (ix2 r k)) := by
  refine (Ideal.multiReduction_maximumf_single x _ reduces_S1024x2048_S1024 hφ hacc (ix1 r)).trans ?_
  unfold rowMax
  refine congrArg (Finset.fold max (Ideal.ofBits .f32 0xFF800000#32) · (Finset.univ : Finset (Fin 2048))) ?_
  funext k
  exact congrArg x (funext fun a => Fin.ext (by match a with | ⟨0, _⟩ => rfl | ⟨1, _⟩ => rfl))

/-- The weights the kernel multiplies in: the exponential of each logit less its row's maximum (the cast to the
    narrower float type changes nothing over the extended reals). -/
def weights (v0 : Vec Ideal S1x1024x2048 .f32) : FVec Ideal S1024x2048 .bf16 :=
  truncf .bf16
    (exp
      (subf (shapeCast S1024x2048 v0 shapeCasts_S1x1024x2048_S1024x2048)
        (broadcastTo S1024x2048
          (shapeCast S1024x1
            (multiReduction (F := Ideal) .maximumf [1] S1024
              (shapeCast S1024x2048 v0 shapeCasts_S1x1024x2048_S1024x2048) 0xFF800000#32
              reduces_S1024x2048_S1024 (.inl rfl) rfl)
            shapeCasts_S1024_S1024x1)
          broadcasts_S1024x1_S1024x2048)))
    bitsLt_bf16_f32

/-- At `(r, k)` the weight is `exp (x k - M)` for the row `x` of logits and its maximum `M`. -/
theorem weights_apply (v0 : Vec Ideal S1x1024x2048 .f32) (r : Fin 1024) (k : Fin 2048) :
    weights v0 (ix2 r k)
      = wt (fun k : Fin 2048 => v0 (ix3 (0 : Fin 1) r k)) (rowMax (fun k : Fin 2048 => v0 (ix3 (0 : Fin 1) r k))) k := by
  unfold weights wt
  show Ideal.exp (shapeCast S1024x2048 v0 shapeCasts_S1x1024x2048_S1024x2048 (ix2 r k)
      - broadcastTo S1024x2048 _ broadcasts_S1024x1_S1024x2048 (ix2 r k)) = _
  rw [logits_apply]
  refine congrArg (fun M => Ideal.exp (v0 (ix3 (0 : Fin 1) r k) - M)) ?_
  refine (broadcastTo_a1_ab_apply _ broadcasts_S1024x1_S1024x2048 r k).trans ?_
  refine (shapeCast_a_a1_apply _ shapeCasts_S1024_S1024x1 r 0).trans ?_
  refine (rowMax_apply _ _ _ r).trans ?_
  exact congrArg rowMax (funext fun k' => logits_apply v0 r k')

/-! The product's operand indices: at result index `i` and contraction position `q` the left operand is read at
    `(i 0, q)` and the right one at `(q, i 1)`. -/

theorem lhs_dot_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_dot_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_dot_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_dot_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into the zero block, at `(r, c)`: the sum over the keys of the left operand at `(r, k)` times the
    right one at `(k, c)`. -/
theorem product_apply (A : FVec Ideal S1024x2048 .bf16) (B : FVec Ideal S2048x128 .bf16) (r : Fin 1024) (c : Fin 128) :
    matmul dot_S1024x2048_S2048x128_S1024x128_1_0_0_1_n_n none A B (constant (F := Ideal) S1024x128 .f32 0x00000000#32) (ix2 r c)
      = ∑ k : Fin 2048, A (ix2 r k) * B (ix2 k c) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r c) ((ValueIdx.contrEquiv1 dot_S1024x2048_S2048x128_S1024x128_1_0_0_1_n_n 2048 rfl rfl).symm k) = ix2 r k := funext fun a => Fin.ext (by
    match a with
    | ⟨0, _⟩ => exact lhs_dot_0 _ _
    | ⟨1, _⟩ => exact (lhs_dot_1 _ _).trans hk)
  have er : dot_S1024x2048_S2048x128_S1024x128_1_0_0_1_n_n.rhsIdx (ix2 r c) ((ValueIdx.contrEquiv1 dot_S1024x2048_S2048x128_S1024x128_1_0_0_1_n_n 2048 rfl rfl).symm k) = ix2 k c := funext fun a => Fin.ext (by
    match a with
    | ⟨0, _⟩ => exact (rhs_dot_0 _ _).trans hk
    | ⟨1, _⟩ => exact rhs_dot_1 _ _)
  rw [el, er]

/-- The augmented value block viewed as a matrix reads, at `(k, c)`, the block at `(0, k, c)`. -/
theorem values_apply (v8 : Vec Ideal S1x2048x128 .bf16) (k : Fin 2048) (c : Fin 128) :
    shapeCast S2048x128 v8 shapeCasts_S1x2048x128_S2048x128 (ix2 k c) = v8 (ix3 (0 : Fin 1) k c) :=
  shapeCast_1ab_ab_apply v8 _ k c

/-- The weights mixed into every lane of the augmented value block. -/
def mixed (v0 : Vec Ideal S1x1024x2048 .f32) (v8 : Vec Ideal S1x2048x128 .bf16) : FVec Ideal S1024x128 .f32 :=
  matmul dot_S1024x2048_S2048x128_S1024x128_1_0_0_1_n_n none (weights v0)
    (shapeCast S2048x128 v8 shapeCasts_S1x2048x128_S2048x128 : FVec Ideal S2048x128 .bf16)
    (constant (F := Ideal) S1024x128 .f32 0x00000000#32)

/-- At `(r, c)`: the sum over the keys of row `r`'s weights times lane `c` of the value block. -/
theorem mixed_apply (v0 : Vec Ideal S1x1024x2048 .f32) (v8 : Vec Ideal S1x2048x128 .bf16) (r : Fin 1024) (c : Fin 128) :
    mixed v0 v8 (ix2 r c)
      = ∑ k : Fin 2048, wt (fun k : Fin 2048 => v0 (ix3 (0 : Fin 1) r k)) (rowMax (fun k : Fin 2048 => v0 (ix3 (0 : Fin 1) r k))) k
          * v8 (ix3 (0 : Fin 1) k c) := by
  unfold mixed
  refine (product_apply _ _ r c).trans ?_
  refine Finset.sum_congr rfl fun k _ => ?_
  rw [weights_apply, values_apply]

/-- The stored block at `(0, r, d)`, from the loaded logits block `v0` (1 x 1024 x 2048) and the loaded augmented
    value block `v8` (1 x 2048 x 128). -/
theorem pay_apply (v0 : Vec Ideal S1x1024x2048 .f32) (v8 : Vec Ideal S1x2048x128 .bf16) (r : Fin 1024) (d : Fin 64) :
    k0_pay1 (F := Ideal) v0 v8 (ix3 (0 : Fin 1) r d)
      = mixK (fun k : Fin 2048 => v0 (ix3 (0 : Fin 1) r k))
          (fun k : Fin 2048 => v8 (ix3 (0 : Fin 1) k (⟨d.val, by omega⟩ : Fin 128)))
          (fun k : Fin 2048 => v8 (ix3 (0 : Fin 1) k (⟨64, by omega⟩ : Fin 128))) := by
  unfold k0_pay1
  refine (shapeCast_ab_1ab_apply _ shapeCasts_S1024x64_S1x1024x64 (0 : Fin 1) r d).trans ?_
  show Ideal.div
      (extractStridedSlice S1024x64 ![0, 0] (mixed v0 v8) slices_S1024x128_o0_0_S1024x64 (ix2 r d))
      (broadcastTo S1024x64 (extractStridedSlice S1024x1 ![0, 64] (mixed v0 v8) slices_S1024x128_o0_64_S1024x1)
        broadcasts_S1024x1_S1024x64 (ix2 r d)) = _
  unfold mixK
  have hnum : extractStridedSlice S1024x64 ![0, 0] (mixed v0 v8) slices_S1024x128_o0_0_S1024x64 (ix2 r d)
      = mixed v0 v8 (ix2 r (⟨d.val, by omega⟩ : Fin 128)) :=
    slice2_axis1_apply 0 (mixed v0 v8) slices_S1024x128_o0_0_S1024x64 r d _ (Nat.zero_add _).symm
  have hden : broadcastTo S1024x64 (extractStridedSlice S1024x1 ![0, 64] (mixed v0 v8) slices_S1024x128_o0_64_S1024x1)
        broadcasts_S1024x1_S1024x64 (ix2 r d) = mixed v0 v8 (ix2 r (⟨64, by omega⟩ : Fin 128)) :=
    (broadcastTo_a1_ab_apply _ broadcasts_S1024x1_S1024x64 r d).trans
      (slice2_axis1_apply 64 (mixed v0 v8) slices_S1024x128_o0_64_S1024x1 r (0 : Fin 1) _ rfl)
  rw [hnum, hden, mixed_apply, mixed_apply]

end Cert.KernelIdeal.Pay

end
-- ==== Proof.KernelValue.lean ====
/-
  The idealized kernel's result as one function of the two argument arrays.

  Grid point t = (head, query tile) writes back block (head, tile, 0) of the output array (32 x 2048 x 64): 1024
  query rows by 64 lanes. Its logits block is block (head, tile, 0) of the logits array (all 2048 keys), its value
  block is block (head, 0, 0) of the augmented value array (all keys, all 128 lanes). So output entry
  (head, q, d) is the mix-then-divide of logits row (head, q, ·) into value lane d and into lane 64, whatever the
  tile: the blocks are restrictions of ONE whole-array function, and since the 64 blocks tile the array, the
  array ends at that function. The closing reshape splits the head axis back into (b, h); read through the host
  operations before the kernel, the result at (b, h, q, d) is row (b, h, q, ·) of the second argument mixed into
  column (b, h, ·, d) of the first and into a column of ones.
-/
import proofs.«403945_j39376260170426_3_alg».proof.Proof.FrameIdeal
import proofs.«403945_j39376260170426_3_alg».proof.Proof.KernelArrays
import proofs.«403945_j39376260170426_3_alg».proof.Proof.KernelPay
import proofs.«403945_j39376260170426_3_alg».proof.Proof.AttnSpec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Frm Cert.KernelIdeal.Arr Cert.KernelIdeal.Pay Cert.AttnSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the 64 grid points: the logits' block moves with the output's on the head and tile
    axes and spans all keys; the value block moves with the head only; the output's block index is (head, tile, 0). -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 31 ∧ win0_2.index t (1 : Fin 3) ≤ 1 :=
  (by decide +kernel : ∀ t : Fin grid0.N, _)

/-- Every (head, tile) is some grid point's output block. -/
theorem idx_onto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- The output array as ONE function of the logits array `a0` and the augmented value array `a5`: at
    (head, q, d), the row (head, q, ·) of `a0` mixed into lane `d` and into lane 64 of head's rows of `a5`. -/
def G6 (a0 : (⟨S32x2048x2048, .f32⟩ : BufTy).Contents (Elt Ideal)) (a5 : (⟨S32x2048x128, .bf16⟩ : BufTy).Contents (Elt Ideal)) :
    (⟨S32x2048x64, .f32⟩ : BufTy).Contents (Elt Ideal) :=
  fun j => mixK (fun k : Fin 2048 => a0 (ix3 (⟨(j 0).val, (j 0).isLt⟩ : Fin 32) (⟨(j 1).val, (j 1).isLt⟩ : Fin 2048) k))
    (fun k : Fin 2048 => a5 (ix3 (⟨(j 0).val, (j 0).isLt⟩ : Fin 32) k (⟨(j 2).val, Nat.lt_of_lt_of_le (j 2).isLt (by decide)⟩ : Fin 128)))
    (fun k : Fin 2048 => a5 (ix3 (⟨(j 0).val, (j 0).isLt⟩ : Fin 32) k (⟨64, by omega⟩ : Fin 128)))

/-- The logits block at point `t`, at row `r` and key `k`, is the logits array at any index with head the block's,
    query row `1024 * tile + r` and key `k`. -/
theorem xblk_apply (c : Dev nD) (t : Fin cfg0.N) (r : Fin 1024) (k : Fin 2048) (i : S32x2048x2048.Idx)
    (h0 : (i 0).val = win0_2.index t (0 : Fin 3)) (h1 : (i 1).val = win0_2.index t (1 : Fin 3) * 1024 + r.val) (h2 : (i 2).val = k.val) :
    iblk m c 0 t (ix3 (0 : Fin 1) r k) = V m c main_v0 i := by
  obtain ⟨e0, e1, e2, -⟩ := idx_facts t
  show V m c main_v0 (((cfg0.win 0).blk t).view.emb (ix3 (0 : Fin 1) r k)) = V m c main_v0 i
  refine congrArg _ (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 2048 + 1 * k.val = (i 2).val; omega

/-- The value block at point `t`, at key `k` and lane `l`, is the augmented value array at the block's head, key `k`,
    lane `l`. -/
theorem vblk_apply (c : Dev nD) (t : Fin cfg0.N) (k : Fin 2048) (l : Fin 128) (i : S32x2048x128.Idx)
    (h0 : (i 0).val = win0_2.index t (0 : Fin 3)) (h1 : (i 1).val = k.val) (h2 : (i 2).val = l.val) :
    iblk m c 1 t (ix3 (0 : Fin 1) k l) = V m c main_v5 i := by
  obtain ⟨-, -, -, e3, e4, e5, -⟩ := idx_facts t
  show V m c main_v5 (((cfg0.win 1).blk t).view.emb (ix3 (0 : Fin 1) k l)) = V m c main_v5 i
  refine congrArg _ (funext fun a => Fin.ext ?_)
  match a with
  | ⟨0, _⟩ => show win0_1.index t (0 : Fin 3) * 1 + 1 * 0 = (i 0).val; omega
  | ⟨1, _⟩ => show win0_1.index t (1 : Fin 3) * 2048 + 1 * k.val = (i 1).val; omega
  | ⟨2, _⟩ => show win0_1.index t (2 : Fin 3) * 128 + 1 * l.val = (i 2).val; omega

/-- WHAT POINT `t` WRITES BACK is block `t` of `G6` of the two arrays as the kernel finds them. -/
theorem flushed_eq (c : Dev nD) (t : Fin cfg0.N) :
    (dats m 0 c).flushed 2 t = ((cfg0.win 2).blk t).view.read (Elt Ideal) (G6 (V m c main_v0) (V m c main_v5)) := by
  show (cfg0.win 2).cut (grid0.coords t) ((dats m 0 c).after 2 t) = _
  rw [after0_2]
  unfold out0_2
  rw [View.canon_unit_zero hz3]
  simp only [View.ld_unit_zero (S := S1x1024x2048) hz3, View.ld_unit_zero (S := S1x2048x128) hz3]
  funext j
  show k0_pay1 (F := Ideal) (iblk m c 0 t) (iblk m c 1 t) j = G6 (V m c main_v0) (V m c main_v5) (((cfg0.win 2).blk t).view.emb j)
  obtain ⟨z, r, d, rfl⟩ : ∃ (z : Fin 1) (r : Fin 1024) (d : Fin 64), j = ix3 z r d := ⟨j 0, j 1, j 2, eq_ix3 j⟩
  obtain rfl : z = 0 := Subsingleton.elim _ _
  refine (pay_apply (iblk m c 0 t) (iblk m c 1 t) r d).trans ?_
  unfold G6
  have hx : (fun k : Fin 2048 => iblk m c 0 t (ix3 (0 : Fin 1) r k))
      = fun k : Fin 2048 => V m c main_v0 (ix3 (⟨((((cfg0.win 2).blk t).view.emb (ix3 (0 : Fin 1) r d)) 0).val, ((((cfg0.win 2).blk t).view.emb (ix3 (0 : Fin 1) r d)) 0).isLt⟩ : Fin 32)
          (⟨((((cfg0.win 2).blk t).view.emb (ix3 (0 : Fin 1) r d)) 1).val, ((((cfg0.win 2).blk t).view.emb (ix3 (0 : Fin 1) r d)) 1).isLt⟩ : Fin 2048) k) :=
    funext fun k => xblk_apply m c t r k _
      (show win0_2.index t (0 : Fin 3) * 1 + 1 * 0 = win0_2.index t (0 : Fin 3) by omega)
      (show win0_2.index t (1 : Fin 3) * 1024 + 1 * r.val = win0_2.index t (1 : Fin 3) * 1024 + r.val by omega) rfl
  have hv : ∀ l : Fin 128, (fun k : Fin 2048 => iblk m c 1 t (ix3 (0 : Fin 1) k l))
      = fun k : Fin 2048 => V m c main_v5 (ix3 (⟨((((cfg0.win 2).blk t).view.emb (ix3 (0 : Fin 1) r d)) 0).val, ((((cfg0.win 2).blk t).view.emb (ix3 (0 : Fin 1) r d)) 0).isLt⟩ : Fin 32) k l) :=
    fun l => funext fun k => vblk_apply m c t k l _
      (show win0_2.index t (0 : Fin 3) * 1 + 1 * 0 = win0_2.index t (0 : Fin 3) by omega) rfl rfl
  obtain ⟨-, -, -, -, -, -, e6, -⟩ := idx_facts t
  have hd : (⟨((((cfg0.win 2).blk t).view.emb (ix3 (0 : Fin 1) r d)) 2).val, Nat.lt_of_lt_of_le ((((cfg0.win 2).blk t).view.emb (ix3 (0 : Fin 1) r d)) 2).isLt (show (64 : Nat) ≤ 128 by decide)⟩ : Fin 128)
      = (⟨d.val, by omega⟩ : Fin 128) :=
    Fin.ext (show win0_2.index t (2 : Fin 3) * 64 + 1 * d.val = d.val by omega)
  rw [hx, hv, hv, hd]

/-- An index of the output array is in point `t`'s block iff each coordinate is in the block's range on its axis. -/
theorem mem_blk (t : Fin cfg0.N) (i : S32x2048x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v6).slice (win0_2.rect t)).set ↔ _
  rw [View.set_slice_whole, Rect.mem_set_unit]
  exact Iff.rfl

/-- The 64 blocks cover the output array: entry (head, q, d) is in the block of the point (head, q / 1024). -/
theorem cover (i : S32x2048x64.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- THE OUTPUT ARRAY after the run is `G6` of the two arrays as the kernel finds them. -/
theorem final6 (c : Dev nD) : (dats m 0 c).arrAt 2 cfg0.N = G6 (V m c main_v0) (V m c main_v5) :=
  (dats m 0 c).arrAt_eq_of_cover 2 (G6 (V m c main_v0) (V m c main_v5)) (fun t _ => flushed_eq m c t) cover

/-- The result buffer after the closing reshape: the output array with the head axis split back into (b, h). -/
theorem result_eq (c : Dev nD) :
    (Pipeline.afterTail₀ cfgs (dats m) 0 (V0 m) [hostOps1] c main_v7 : (⟨S2x16x2048x64, .f32⟩ : BufTy).Contents (Elt Ideal))
      = shapeCast S2x16x2048x64 (G6 (V m c main_v0) (V m c main_v5)) shapeCasts_S32x2048x64_S2x16x2048x64 := by
  have hw : Pipeline.withArrays (cfgs 0).spec c (V0 m c) (fun w => (dats m 0 c).arrAt w (cfgs 0).N) (Proc.devRef .tc main_v6)
      = G6 (V m c main_v0) (V m c main_v5) :=
    (Pipeline.withArrays_arr spec0 launch0.win.arr_inj c (V0 m c) (fun w => (dats m 0 c).arrAt w (cfgs 0).N) 2).trans (final6 m c)
  unfold Pipeline.afterTail₀
  show StableHlo.after hostOps1 _ (Proc.devRef .tc main_v7) = _
  after_results
  rw [hw]
  rfl

/-- THE RESULT, index by index, is the specification `G` of the two argument arrays as launched. -/
theorem value_apply (c : Dev nD) (i : S2x16x2048x64.Idx) :
    shapeCast S2x16x2048x64 (G6 (V m c main_v0) (V m c main_v5)) shapeCasts_S32x2048x64_S2x16x2048x64 i
      = G (m ((c : Thread nD τ).loc main_arg0)) (m ((c : Thread nD τ).loc main_arg1)) i := by
  obtain ⟨b, h, q, d, rfl⟩ : ∃ (b : Fin 2) (h : Fin 16) (q : Fin 2048) (d : Fin 64), i = ix4 b h q d := ⟨i 0, i 1, i 2, i 3, eq_ix4 i⟩
  have hbh : 16 * b.val + h.val < 32 := by have := b.isLt; have := h.isLt; omega
  rw [shapeCast_apply _ shapeCasts_S32x2048x64_S2x16x2048x64 (ix4 b h q d) (ix3 (⟨16 * b.val + h.val, hbh⟩ : Fin 32) q d) (by
    show (S32x2048x64.rowMajor (ix3 (⟨16 * b.val + h.val, hbh⟩ : Fin 32) q d)).val = (S2x16x2048x64.rowMajor (ix4 b h q d)).val
    rw [Shape.rowMajor_val_four, Shape.rowMajor_val_three]
    show ((16 * b.val + h.val) * 2048 + q.val) * 64 + d.val = ((b.val * 16 + h.val) * 2048 + q.val) * 64 + d.val
    omega)]
  unfold G6 G
  have h1 : (fun k : Fin 2048 => V m c main_v0 (ix3 (⟨16 * b.val + h.val, hbh⟩ : Fin 32) q k))
      = fun k : Fin 2048 => m ((c : Thread nD τ).loc main_arg1) (rowIdx (ix4 b h q d) k) :=
    funext fun k => (xarr_apply m c b h q k ⟨16 * b.val + h.val, hbh⟩ rfl).trans
      (congrArg _ (funext fun a => Fin.ext (by match a with | ⟨0, _⟩ => rfl | ⟨1, _⟩ => rfl | ⟨2, _⟩ => rfl | ⟨3, _⟩ => rfl)))
  have h2 : (fun k : Fin 2048 => V m c main_v5 (ix3 (⟨16 * b.val + h.val, hbh⟩ : Fin 32) k (⟨d.val, by omega⟩ : Fin 128)))
      = fun k : Fin 2048 => m ((c : Thread nD τ).loc main_arg0) (colIdx (ix4 b h q d) k) :=
    funext fun k => (varr_apply_lo m c b h k d ⟨16 * b.val + h.val, hbh⟩ rfl).trans
      (congrArg _ (funext fun a => Fin.ext (by match a with | ⟨0, _⟩ => rfl | ⟨1, _⟩ => rfl | ⟨2, _⟩ => rfl | ⟨3, _⟩ => rfl)))
  have h3 : (fun k : Fin 2048 => V m c main_v5 (ix3 (⟨16 * b.val + h.val, hbh⟩ : Fin 32) k (⟨64, by omega⟩ : Fin 128)))
      = fun _ : Fin 2048 => Ideal.ofBits .bf16 0x3F80#16 :=
    funext fun k => varr_apply_one m c k ⟨16 * b.val + h.val, hbh⟩
  exact (congrArg₂ (fun f g => mixK f g _) h1 h2).trans (congrArg (fun u => mixK _ _ u) h3)

/-- THE RUN, read: the result buffer ends at `G` of the launch contents of the two arguments, which end unchanged. -/
theorem run : θ_run defs (onTc (τ := τ) (main (F := Ideal))) ⟨m, fun _ => 0, ρ⟩ (fun r => ∀ c : Dev nD,
      r.2.mem ((c.tc : Thread nD τ).loc main_v7) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans
        ((result_eq m c).trans (funext fun i => value_apply m c i)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Val

end
-- ==== Proof.RefRead.lean ====
/-
  The reference's result read at one index: the dot product of the normalised weights of the logits' row with the
  values' column, that is the normalise-then-mix arrangement of that row and column.
-/
import proofs.«403945_j39376260170426_3_alg».proof.Proof.Gen.ReferenceIdeal.Read
import proofs.«403945_j39376260170426_3_alg».proof.Proof.AttnSpec

noncomputable section

namespace Cert.ReferenceIdeal.RefValue

open Cert.ReferenceIdeal Cert.ReferenceIdeal.Gen Cert.ReferenceIdeal.Read Cert.AttnSpec
open Idealize.ShloMosaic Idealize.ShloMosaic.TcCoe Idealize.SL.Sem Idealize.ShloMosaic.StableHlo

/-- A fold of `max` over `Fin n` restated over `Fin m` for `n = m`. -/
theorem fold_max_cast {n m : Nat} (e : m = n) (b : EReal) (f : Fin n → EReal) :
    (Finset.univ : Finset (Fin n)).fold max b f = (Finset.univ : Finset (Fin m)).fold max b (fun k => f (k.cast e)) := by
  subst e; rfl

/-- The reference's first stage at row `j = (b, h, q)`: the maximum, folded from `-∞`, of the logits `(b, h, q, ·)`. -/
theorem v0_apply (x1 : (⟨S2x16x2048x2048, .f32⟩ : BufTy).Contents (Elt Ideal)) (j : S2x16x2048.Idx) :
    val_main_v0 (F := Ideal) x1 j = rowMax (fun k : Fin 2048 => x1 (idx_main_v7 j k)) := by
  have h : S2x16x2048x2048.Reduces [3] S2x16x2048 := by decide
  unfold val_main_v0
  rw [Host.reduce_eq_fold_single (α := Ideal .f32) FloatOps.maximumf x1 _ reducesTo_S2x16x2048x2048_S2x16x2048_d3 h h_S_]
  have hl : ∀ k : Fin (S2x16x2048x2048.size 3), h.lift j k = idx_main_v7 j ⟨k.val, k.isLt⟩ := fun k =>
    funext fun a => Fin.ext (by
      match a with
      | ⟨0, _⟩ => rfl
      | ⟨1, _⟩ => rfl
      | ⟨2, _⟩ => rfl
      | ⟨3, _⟩ => rfl)
  have e : (2048 : Nat) = S2x16x2048x2048.size 3 := rfl
  show Finset.fold (max : EReal → EReal → EReal) (Ideal.ofBits .f32 0xFF800000#32) (x1 ∘ h.lift j) Finset.univ = _
  rw [fold_max_cast e]
  unfold rowMax
  refine congrArg (fun f => Finset.fold max (Ideal.ofBits .f32 0xFF800000#32) f (Finset.univ : Finset (Fin 2048))) (funext fun k => ?_)
  show x1 (h.lift j (k.cast e)) = x1 (idx_main_v7 j k)
  rw [hl]
  rfl

/-- The exponentials stage at `(b, h, q, k)`: the weight of key `k` in the row `(b, h, q, ·)` against that row's maximum
    joined once more with `-∞`. -/
theorem v6_row (x1 : (⟨S2x16x2048x2048, .f32⟩ : BufTy).Contents (Elt Ideal)) (i : S2x16x2048x64.Idx) (k : Fin 2048) :
    val_main_v6 (F := Ideal) x1 (rowIdx i k)
      = wt (fun k : Fin 2048 => x1 (rowIdx i k)) (max (Ideal.ofBits .f32 0xFF800000#32) (rowMax fun k : Fin 2048 => x1 (rowIdx i k))) k := by
  rw [val_main_v6_apply, val_main_v5_apply, val_main_v4_apply, val_main_v3_apply, val_main_v2_apply, val_main_v1_apply,
    val_main_cst_0_apply, v0_apply]
  have hr : ∀ k' : Fin 2048, idx_main_v7 (idx_main_v3 (idx_main_v4 (rowIdx i k))) k' = rowIdx i k' := fun k' =>
    funext fun a => by
      match a with
      | ⟨0, _⟩ => rfl
      | ⟨1, _⟩ => rfl
      | ⟨2, _⟩ => rfl
      | ⟨3, _⟩ => rfl
  simp only [hr]
  rfl

/-- At result index `i = (b, h, q, d)` the reference's last stage is the row `(b, h, q, ·)` of the logits, normalised,
    mixed into the column `(b, h, ·, d)` of the values. -/
theorem ref_apply (x0 : (⟨S2x16x2048x64, .f32⟩ : BufTy).Contents (Elt Ideal)) (x1 : (⟨S2x16x2048x2048, .f32⟩ : BufTy).Contents (Elt Ideal))
    (i : S2x16x2048x64.Idx) :
    val_main_v11 (F := Ideal) x0 x1 i = mixR (fun k : Fin 2048 => x1 (rowIdx i k)) (fun k : Fin 2048 => x0 (colIdx i k)) := by
  rw [val_main_v11_apply]
  unfold mixR
  refine Finset.sum_congr rfl fun k _ => ?_
  rw [val_main_v10_apply, val_main_v9_apply, val_main_v8_apply, val_main_v7_apply, val_main_cst_1_apply]
  have hr : ∀ k' : Fin 2048, idx_main_v7 (idx_main_v8 (idx_main_v9 (lidx_main_v11 i k))) k' = rowIdx i k' := fun k' =>
    funext fun a => by
      match a with
      | ⟨0, _⟩ => rfl
      | ⟨1, _⟩ => rfl
      | ⟨2, _⟩ => rfl
      | ⟨3, _⟩ => rfl
  have hl : lidx_main_v11 i k = rowIdx i k := rfl
  have hc : ridx_main_v11 i k = colIdx i k := rfl
  simp only [hr]
  rw [hl, hc]
  simp only [v6_row]
  rfl

end Cert.ReferenceIdeal.RefValue

end
-- ==== Proof.Finite.lean ====
/-
  From the precondition to real numbers: the printed predicate says that the absolute value of every entry of the
  two argument arrays is below +∞ (and the conjunction of the two tests is true). On the extended reals an entry
  whose absolute value is below +∞ is neither +∞ nor -∞, so it is a real number.
-/
import proofs.«403945_j39376260170426_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs
open Idealize.ShloMosaic

/-- The scalar shape has a single index. -/
instance subsingleton_scalar_idx : Subsingleton S_.Idx := ⟨fun a b => funext fun d => d.elim0⟩

/-- The word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is below `+∞` is a real number: at `+∞` the maximum
    is `+∞` itself, at `-∞` it is `-(-∞) = +∞`, and in neither case is it below `+∞`. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- One entry's test read back: a true `|x| < +∞` comparison at the ideal values says `x` is real. -/
theorem real_of_test (x : EReal)
    (hx : Ideal.cmp .olt (max x (-x)) (Ideal.ofBits .f32 0x7F800000#32) = 1#1) : ∃ r : ℝ, x = (r : EReal) := by
  rw [ofBits_inf] at hx
  apply real_of_abs_lt_top
  by_contra hlt
  simp [Ideal.cmp, hlt] at hx

/-- Where the precondition holds of two arrays at the ideal values, every entry of both is a real number. -/
theorem real_of_pre [Cert.Pre_finite_inputs.Facts] (a0 : FVec Ideal S2x16x2048x64 .f32) (a1 : FVec Ideal S2x16x2048x2048 .f32)
    (h : Cert.Pre_finite_inputs.fn (F := Ideal) a0 a1 = fun _ => 1#1) :
    (∀ i : S2x16x2048x64.Idx, ∃ r : ℝ, a0 i = (r : EReal)) ∧ (∀ i : S2x16x2048x2048.Idx, ∃ r : ℝ, a1 i = (r : EReal)) := by
  have h0 := congrFun h ValueIdx.ix0
  dsimp only [fn] at h0
  obtain ⟨hA, hB⟩ := IntOp.andi_eq_one.1 h0
  refine ⟨fun i => ?_, fun i => ?_⟩
  · have e := Host.reduce_andi_all _ _ _ _ _ hA i
    exact real_of_test (a0 i) e
  · have e := Host.reduce_andi_all _ _ _ _ _ hB i
    exact real_of_test (a1 i) e

end Cert.Pre_finite_inputs.Finite

end
-- ==== Proof.lean ====
/-
  The kernel computes, per head and per tile of 1024 query rows, the row-softmax of the logits against ALL keys
  mixed into the values, by ONE matrix product against the values augmented with a column of ones: the first 64
  lanes of the product are the unnormalised mix, lane 64 is the sum of the weights, and their quotient is stored.
  The reference normalises the weights first (exp (x - max) / ∑ exp (x - max)) and then takes the dot product with
  the values.

  Over the extended reals the two are the same function of the two argument arrays where every entry is finite:
  the row maximum of finitely many reals is real, every weight is a positive real, their sum is a positive real,
  and dividing a finite sum of reals by it term by term or as a whole is the same number. The narrowing of the
  values and of the weights to bf16 is the identity on the extended reals, the column of ones contributes exactly
  the sum of the weights, and the zero padding lanes are never read back.

  The three programs run to the end without a fault and leave the two arguments as launched: the two kernels by
  the pipeline's launch theorem over the body's run (the output block at each grid point is one function of the
  two input blocks), the reference by the run of its fifteen host operations. The idealization rewrote nothing, so
  the kernel's idealization is its own text read at the ideal values.
-/
import proofs.«403945_j39376260170426_3_alg».proof.Defs
import proofs.«403945_j39376260170426_3_alg».proof.Proof.Gen.Kernel
import proofs.«403945_j39376260170426_3_alg».proof.Proof.Gen.KernelIdeal
import proofs.«403945_j39376260170426_3_alg».proof.Proof.Gen.ReferenceIdeal
import proofs.«403945_j39376260170426_3_alg».proof.Proof.Gen.Pre_finite_inputs
import proofs.«403945_j39376260170426_3_alg».proof.Proof.Gen.ReferenceIdeal.Run
import proofs.«403945_j39376260170426_3_alg».proof.Proof.Gen.ReferenceIdeal.Read
import proofs.«403945_j39376260170426_3_alg».proof.Proof.FrameBits
import proofs.«403945_j39376260170426_3_alg».proof.Proof.FrameIdeal
import proofs.«403945_j39376260170426_3_alg».proof.Proof.KernelValue
import proofs.«403945_j39376260170426_3_alg».proof.Proof.RefRead
import proofs.«403945_j39376260170426_3_alg».proof.Proof.Finite
import proofs.«403945_j39376260170426_3_alg».proof.Proof.AttnSpec

noncomputable section

namespace Cert.Proof

open Idealize.ShloMosaic Idealize.ShloMosaic.TcCoe Idealize.SL.Sem

/-- The word-level kernel runs, and its arguments end as launched. -/
theorem frame_k : Cert.frame_Kernel := fun m ρ _ => Cert.Kernel.Frm.frame m ρ

/-- So does the kernel read at the ideal values. -/
theorem frame_ki : Cert.frame_KernelIdeal := fun m ρ _ => Cert.KernelIdeal.Frm.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both finite, the kernel's result (mix into the values and into
    the ones, then divide) and the reference's (normalise, then mix) are one array: at each index the law
    `Cert.AttnSpec.mix_eq` on the index's row of logits and column of values. -/
theorem algebraic : Cert.algebraic_KernelIdeal_ReferenceIdeal := by
  intro m ρ m' ρ' hpre hagree
  refine ⟨fun c => Cert.AttnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v11_eq]
  obtain ⟨h0, h1⟩ := Cert.Pre_finite_inputs.Finite.real_of_pre _ _ (hpre c)
  funext i
  rw [Cert.ReferenceIdeal.RefValue.ref_apply]
  exact Cert.AttnSpec.mix_eq (by decide) _ _ (fun k => h1 _) (fun k => h0 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
